-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S2048x64 : Shape := ⟨2, ![2048, 64]⟩
abbrev S65536 : Shape := ⟨1, ![65536]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S65536x64 .f32) (main_arg1 : FVec F S2048x64 .f32) (main_arg2 : IVec S65536 32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg2 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  let main_c_4 : IVec S_ 32 := constantI S_ 32 2048#32
  let main_v13 : IVec S65536 32 := broadcastInDim S65536 ![] bcast_S_S65536 main_c_4
  let main_v14 : IVec S65536 1 := cmpi .slt main_arg2 main_v13
  let main_c_5 : IVec S_ 1 := constantI S_ 1 1#1
  let main_v15 : IVec S_ 1 := (fun x v => Host.reduce IntOp.andi x v reducesTo_S65536_S_d0 h_S_) main_v14 main_c_5
  fn_part1 (F := F) main_v12 main_v15
-- ==== Kernel.lean ====
abbrev S65536x64 : Shape := ⟨2, ![65536, 64]⟩
abbrev S2048x64 : Shape := ⟨2, ![2048, 64]⟩
abbrev S65536 : Shape := ⟨1, ![65536]⟩
abbrev S65536x1 : Shape := ⟨2, ![65536, 1]⟩
abbrev S_ : Shape := ⟨0, ![]⟩
abbrev S2048 : Shape := ⟨1, ![2048]⟩
abbrev S1x2048 : Shape := ⟨2, ![1, 2048]⟩
abbrev S2x8x128 : Shape := ⟨3, ![2, 8, 128]⟩
abbrev S1024x64 : Shape := ⟨2, ![1024, 64]⟩
abbrev S1024x1 : Shape := ⟨2, ![1024, 1]⟩
abbrev S1x8x128 : Shape := ⟨3, ![1, 8, 128]⟩
abbrev S1024x2048 : Shape := ⟨2, ![1024, 2048]⟩
abbrev S1024 : Shape := ⟨1, ![1024]⟩
abbrev S1 : Shape := ⟨1, ![1]⟩
abbrev S1x1 : Shape := ⟨2, ![1, 1]⟩
abbrev S1x1x1 : Shape := ⟨3, ![1, 1, 1]⟩

abbrev nBuf : Space → Nat
  | .hbm => 14
  | .vmem => 8
  | .smem => 0
  | _ => 0

abbrev bufTy : (tb : Table) → Fin (tcTables nBuf tb) → BufTy
  | .hbm, ⟨0, _⟩ => ⟨S65536x64, .f32⟩
  | .hbm, ⟨1, _⟩ => ⟨S2048x64, .f32⟩
  | .hbm, ⟨2, _⟩ => ⟨S65536, .i32⟩
  | .hbm, ⟨3, _⟩ => ⟨S65536x1, .i32⟩
  | .hbm, ⟨4, _⟩ => ⟨S2048x64, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S2x8x128, .f32⟩
  | .hbm, ⟨9, _⟩ => ⟨S1x1x1, .f32⟩
  | .hbm, ⟨10, _⟩ => ⟨S_, .f32⟩
  | .hbm, ⟨11, _⟩ => ⟨S1x1x1, .f32⟩
  | .hbm, ⟨12, _⟩ => ⟨S_, .f32⟩
  | .hbm, ⟨13, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S1024x1, .i32⟩
  | .local _ .vmem, ⟨3, _⟩ => ⟨S1024x1, .i32⟩
  | .local _ .vmem, ⟨4, _⟩ => ⟨S2048x64, .f32⟩
  | .local _ .vmem, ⟨5, _⟩ => ⟨S1x2048, .f32⟩
  | .local _ .vmem, ⟨6, _⟩ => ⟨S1x8x128, .f32⟩
  | .local _ .vmem, ⟨7, _⟩ => ⟨S1x8x128, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S65536_S65536x1 : S65536.ShapeCasts S65536x1
  reducesTo_S2048x64_S2048_d1 : S2048x64.ReducesTo [1] S2048
  h_S_ : 0 < S_.numel
  bcast_S2048_S1x2048_1 : S2048.BroadcastsInDim S1x2048 (![1] : Fin 1 → Fin S1x2048.rank)
  inb_S1x8x128_S1x8x128_0_0_0 : ∀ a, (![0, 0, 0] : Fin 3 → Nat) a + S1x8x128.size a ≤ S1x8x128.size a
  h_S1x8x128 : 0 < S1x8x128.numel
  inb_S1024x64_S1024x64_0_0 : ∀ a, (![0, 0] : Fin 2 → Nat) a + S1024x64.size a ≤ S1024x64.size a
  h_S1024x64 : 0 < S1024x64.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2048x64_S2048x64_0_0 : ∀ a, (![0, 0] : Fin 2 → Nat) a + S2048x64.size a ≤ S2048x64.size a
  h_S2048x64 : 0 < S2048x64.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  reduces_S1024x64_S1024 : S1024x64.Reduces [1] S1024
  shapeCasts_S1024_S1024x1 : S1024.ShapeCasts S1024x1
  broadcasts_S1024x1_S1024x2048 : S1024x1.Broadcasts S1024x2048
  broadcasts_S1x2048_S1024x2048 : S1x2048.Broadcasts S1024x2048
  iota_S1024x2048_d1_w32 : S1024x2048.Iotas .tc 32 [1]
  reduces_S1024x2048_S1024 : S1024x2048.Reduces [1] S1024
  reduces_S1024x1_S1 : S1024x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  broadcasts_S1x1x1_S1x8x128 : S1x1x1.Broadcasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x64 : Shape := ⟨2, ![65536, 64]⟩
abbrev S2048x64 : Shape := ⟨2, ![2048, 64]⟩
abbrev S65536 : Shape := ⟨1, ![65536]⟩
abbrev S_ : Shape := ⟨0, ![]⟩
abbrev S65536x1 : Shape := ⟨2, ![65536, 1]⟩
abbrev S2048 : Shape := ⟨1, ![2048]⟩
abbrev S1x2048 : Shape := ⟨2, ![1, 2048]⟩
abbrev S65536x2048 : Shape := ⟨2, ![65536, 2048]⟩
abbrev S64x2048 : Shape := ⟨2, ![64, 2048]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S2048x64, .f32⟩
  | .hbm, ⟨2, _⟩ => ⟨S65536, .i32⟩
  | .hbm, ⟨3, _⟩ => ⟨S65536x64, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S2048x64, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S65536x2048, .f32⟩
  | .hbm, ⟨12, _⟩ => ⟨S65536x2048, .f32⟩
  | .hbm, ⟨13, _⟩ => ⟨S65536x2048, .f32⟩
  | .hbm, ⟨14, _⟩ => ⟨S_, .f32⟩
  | .hbm, ⟨15, _⟩ => ⟨S65536x64, .f32⟩
  | .hbm, ⟨16, _⟩ => ⟨S65536x64, .f32⟩
  | .hbm, ⟨17, _⟩ => ⟨S64x2048, .f32⟩
  | .hbm, ⟨18, _⟩ => ⟨S65536x2048, .f32⟩
  | .hbm, ⟨19, _⟩ => ⟨S65536x2048, .f32⟩
  | .hbm, ⟨20, _⟩ => ⟨S_, .f32⟩
  | .hbm, ⟨21, _⟩ => ⟨S65536x2048, .f32⟩
  | .hbm, ⟨22, _⟩ => ⟨S65536x2048, .f32⟩
  | .hbm, ⟨23, _⟩ => ⟨S65536x2048, .f32⟩
  | .hbm, ⟨24, _⟩ => ⟨S65536x1, .i32⟩
  | .hbm, ⟨25, _⟩ => ⟨S_, .i32⟩
  | .hbm, ⟨26, _⟩ => ⟨S65536x1, .i32⟩
  | .hbm, ⟨27, _⟩ => ⟨S65536x1, .i1⟩
  | .hbm, ⟨28, _⟩ => ⟨S_, .i32⟩
  | .hbm, ⟨29, _⟩ => ⟨S65536x1, .i32⟩
  | .hbm, ⟨30, _⟩ => ⟨S65536x1, .i32⟩
  | .hbm, ⟨31, _⟩ => ⟨S65536x1, .i32⟩
  | .hbm, ⟨32, _⟩ => ⟨S65536x1x1, .i32⟩
  | .hbm, ⟨33, _⟩ => ⟨S1, .i32⟩
  | .hbm, ⟨34, _⟩ => ⟨S_, .i32⟩
  | .hbm, ⟨35, _⟩ => ⟨S65536x1x1, .i32⟩
  | .hbm, ⟨36, _⟩ => ⟨S65536x1x1, .i1⟩
  | .hbm, ⟨37, _⟩ => ⟨S1x1x1, .i32⟩
  | .hbm, ⟨38, _⟩ => ⟨S65536x1x1, .i32⟩
  | .hbm, ⟨39, _⟩ => ⟨S65536x1x1, .i1⟩
  | .hbm, ⟨40, _⟩ => ⟨S65536x1x1, .i1⟩
  | .hbm, ⟨41, _⟩ => ⟨S_, .i1⟩
  | .hbm, ⟨42, _⟩ => ⟨S65536x1, .i1⟩
  | .hbm, ⟨43, _⟩ => ⟨S65536x1, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S65536x2048, .f32⟩
  | .hbm, ⟨48, _⟩ => ⟨S65536x2048, .f32⟩
  | .hbm, ⟨49, _⟩ => ⟨S_, .f32⟩
  | .hbm, ⟨50, _⟩ => ⟨S65536x2048, .f32⟩
  | .hbm, ⟨51, _⟩ => ⟨S65536x2048, .f32⟩
  | .hbm, ⟨52, _⟩ => ⟨S_, .f32⟩
  | .hbm, ⟨53, _⟩ => ⟨S_, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_cst : Ref sig .tc := ⟨.hbm, 44, rfl⟩
abbrev main_call0_v14 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_call1_cst : Ref sig .tc := ⟨.hbm, 49, rfl⟩
abbrev main_call1_v0 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S2048x64_S2048_d1 : S2048x64.ReducesTo [1] S2048
  bcast_S2048_S1x2048_1 : S2048.BroadcastsInDim S1x2048 (![1] : Fin 1 → Fin S1x2048.rank)
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  bcast_S_S65536x64 : S_.BroadcastsInDim S65536x64 (![] : Fin 0 → Fin S65536x64.rank)
  transposes_S2048x64_S64x2048_1_0 : S2048x64.Transposes [1, 0] S64x2048
  bcast_S_S65536x2048 : S_.BroadcastsInDim S65536x2048 (![] : Fin 0 → Fin S65536x2048.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  reducesTo_S65536x2048_S_d0_1 : S65536x2048.ReducesTo [0, 1] S_
  dot_S65536x64_S64x2048_S65536x2048_1_0_0_1_n_n_wf : DotDims.WF S65536x64 S64x2048 S65536x2048 [1] [0] [0] [1] [] []
  gather_S65536x2048_S65536x1x1_S65536x1_n_1_0_0_1_2_11_wf : GatherDims.WF S65536x2048 S65536x1x1 S65536x1 [] [1] [0] [1] [0] 2 ![1, 1]

variable [Facts₀]

def dot_S65536x64_S64x2048_S65536x2048_1_0_0_1_n_n : DotDims S65536x64 S64x2048 S65536x2048 where
  lhsContracting := [1]
  rhsContracting := [0]
  lhsNonContracting := [0]
  rhsNonContracting := [1]
  lhsBatch := []
  rhsBatch := []
  wf := dot_S65536x64_S64x2048_S65536x2048_1_0_0_1_n_n_wf
def gather_S65536x2048_S65536x1x1_S65536x1_n_1_0_0_1_2_11 : GatherDims S65536x2048 S65536x1x1 S65536x1 where
  offsetDims := []
  collapsedSliceDims := [1]
  operandBatchingDims := [0]
  startIndicesBatchingDims := [0]
  startIndexMap := [1]
  indexVectorDim := 2
  sliceSizes := ![1, 1]
  wf := gather_S65536x2048_S65536x1x1_S65536x1_n_1_0_0_1_2_11_wf

class Facts : Prop extends Facts₀ where

variable [Facts]
-- ==== Proof.KPieces.lean ====
/-
  What one grid point leaves in the output's staging block, as a value.

  The output block [1, 8, 128] is an accumulator. At the first point of each core's 32 (the reset case) the body
  stores the zero block, reads it back and stores zero + (the point's partial loss, copied to every entry). At every
  other point it reads what the point before left and stores that + (the point's partial loss, copied to every
  entry). Both are the same update applied to different starting contents: the zero block, or the contents carried
  over. The partial loss is a function of the point's four input blocks only.
-/
import proofs.«430730_j9045201126030_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not reset: the block ends at the carried contents xo updated by the point's partial loss. -/
theorem out_B (c : Dev nD) (i : grid0.Coords) (a2 : Memref sig .tc .vmem S1024x64 .f32) (h2 : a2.IsWhole) (a3 : Memref sig .tc .vmem S1024x1 .i32) (h3 : a3.IsWhole)
    (a4 : Memref sig .tc .vmem S2048x64 .f32) (h4 : a4.IsWhole) (a5 : Memref sig .tc .vmem S1x2048 .f32) (h5 : a5.IsWhole) (a6 : Memref sig .tc .vmem S1x8x128 .f32) (h6 : a6.IsWhole)
    (hc : ¬cond0_0 i) (x0 : Vec F S1024x64 .f32) (x1 : Vec F S1024x1 .i32) (x2 : Vec F S2048x64 .f32) (x3 : Vec F S1x2048 .f32) (xo : Vec F S1x8x128 .f32) :
    out0_B_4 c i a2 h2 a3 h3 a4 h4 a5 h5 a6 h6 hc x0 x1 x2 x3 xo = k0_pay1 (k0_pay3 x0 x1 x2 x3) xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1024x64) hz2, View.ld_unit_zero (S := S1024x1) hz2, View.ld_unit_zero (S := S2048x64) hz2,
    View.ld_unit_zero (S := S1x2048) hz2, View.ld_unit_zero (S := S1x8x128) hz3]

/-- A point that resets: the block ends at the zero block updated by the point's partial loss. -/
theorem out_A (c : Dev nD) (i : grid0.Coords) (a2 : Memref sig .tc .vmem S1024x64 .f32) (h2 : a2.IsWhole) (a3 : Memref sig .tc .vmem S1024x1 .i32) (h3 : a3.IsWhole)
    (a4 : Memref sig .tc .vmem S2048x64 .f32) (h4 : a4.IsWhole) (a5 : Memref sig .tc .vmem S1x2048 .f32) (h5 : a5.IsWhole) (a6 : Memref sig .tc .vmem S1x8x128 .f32) (h6 : a6.IsWhole)
    (hc : cond0_0 i) (x0 : Vec F S1024x64 .f32) (x1 : Vec F S1024x1 .i32) (x2 : Vec F S2048x64 .f32) (x3 : Vec F S1x2048 .f32) :
    out0_A_4 c i a2 h2 a3 h3 a4 h4 a5 h5 a6 h6 hc x0 x1 x2 x3 = k0_pay1 (k0_pay3 x0 x1 x2 x3) (k0_pay2 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S1024x64) hz2, View.ld_unit_zero (S := S1024x1) hz2, View.ld_unit_zero (S := S2048x64) hz2,
    View.ld_unit_zero (S := S1x2048) hz2, View.ld_unit_zero (S := S1x8x128) hz3]

end Cert.KPieces

end
-- ==== Proof.Spec.lean ====
/-
  The loss both programs compute, as one function of the three argument arrays over the extended reals.

  For a table X of rows in dimension 64 and the 2048 centre rows C, with s(q) the squared norm handed in for centre q,
    dist X C s n q = sqrt (max (|X_n|² + s(q) - 2 · <X_n, C_q>) eps)
  is the clamped distance of row n to centre q (the quadratic expansion of |X_n - C_q|², floored at eps before the root).
  A row's own-class distance is picked out of its 2048 distances by its label l, here written the way the kernel
  computes it: the sum over q of the distance at q where the 32-bit word of q equals l, and zero elsewhere. For a
  label in range exactly one column matches, so that sum is the distance at the label (own_eq). The row's loss is the
  sum over q of max (own - dist q) 0, and the loss is the sum of the rows' losses.

  The definitions are generic in the number of rows so that one text serves the whole array (65536 rows) and one
  block of it (1024 rows).
-/
import Idealize.ShloMosaic.Lib.ValueIdx
import Idealize.ShloMosaic.PureOps.Ideal.Laws

noncomputable section

open scoped BigOperators

namespace Cert.Spec

open Idealize.ShloMosaic Idealize.ShloMosaic.ValueIdx

/-- The factor 2 of the cross term, as the word both programs carry. -/
def two : EReal := Ideal.ofBits .f32 0x40000000#32
/-- The floor under the squared distance, as the word both programs carry. -/
def eps : EReal := Ideal.ofBits .f32 0x2B8CBCCC#32

/-- Squared norm of row n. -/
def sq {N : Nat} (X : (⟨2, ![N, 64]⟩ : Shape).Idx → EReal) (n : Fin N) : EReal :=
  ∑ k : Fin 64, X (ix2 n k) * X (ix2 n k)

/-- Inner product of row n of X with centre row q. -/
def dot {N : Nat} (X : (⟨2, ![N, 64]⟩ : Shape).Idx → EReal) (C : (⟨2, ![2048, 64]⟩ : Shape).Idx → EReal)
    (n : Fin N) (q : Fin 2048) : EReal :=
  ∑ k : Fin 64, X (ix2 n k) * C (ix2 q k)

/-- Clamped distance of row n to centre q, the centres' squared norms given as s. -/
def dist {N : Nat} (X : (⟨2, ![N, 64]⟩ : Shape).Idx → EReal) (C : (⟨2, ![2048, 64]⟩ : Shape).Idx → EReal)
    (s : Fin 2048 → EReal) (n : Fin N) (q : Fin 2048) : EReal :=
  Ideal.sqrt (max (sq X n + s q - two * dot X C n q) eps)

/-- The distance at the label, as a masked sum over the columns: the column whose 32-bit word is l contributes its
    distance, every other column zero. -/
def own (d : Fin 2048 → EReal) (l : BitVec 32) : EReal :=
  ∑ q : Fin 2048, if BitVec.ofNat 32 q.val = l then d q else 0

/-- One row's loss: how far each centre is inside the row's own-class distance, summed over the centres. -/
def rowLoss (d : Fin 2048 → EReal) (l : BitVec 32) : EReal :=
  ∑ q : Fin 2048, max (own d l - d q) 0

/-- The loss of a table of N rows with labels lab. -/
def tableLoss {N : Nat} (X : (⟨2, ![N, 64]⟩ : Shape).Idx → EReal) (C : (⟨2, ![2048, 64]⟩ : Shape).Idx → EReal)
    (s : Fin 2048 → EReal) (lab : Fin N → BitVec 32) : EReal :=
  ∑ n : Fin N, rowLoss (dist X C s n) (lab n)

/-- The loss of the three argument arrays: all 65536 rows, the centres' squared norms computed from the centres. -/
def loss (E : (⟨2, ![65536, 64]⟩ : Shape).Idx → EReal) (C : (⟨2, ![2048, 64]⟩ : Shape).Idx → EReal)
    (L : (⟨1, ![65536]⟩ : Shape).Idx → BitVec 32) : EReal :=
  tableLoss E C (sq C) (fun n => L (ix1 n))

/-- For a label in range the masked sum has exactly one nonzero term: the distance at the label. -/
theorem own_eq (d : Fin 2048 → EReal) (l : BitVec 32) (h : l.toNat < 2048) : own d l = d ⟨l.toNat, h⟩ := by
  unfold own
  rw [Finset.sum_eq_single (⟨l.toNat, h⟩ : Fin 2048)]
  · rw [if_pos]
    exact BitVec.eq_of_toNat_eq (by simp [BitVec.toNat_ofNat] <;> omega)
  · intro q _ hq
    rw [if_neg]
    intro hql
    apply hq
    apply Fin.ext
    have := congrArg BitVec.toNat hql
    simp [BitVec.toNat_ofNat] at this
    have hq' := q.isLt
    show q.val = l.toNat
    omega
  · intro hn
    exact absurd (Finset.mem_univ _) hn

end Cert.Spec

end
-- ==== Proof.KBlocks.lean ====
/-
  The four input blocks of grid point t, read off the argument arrays.

  Point t (0 ≤ t < 64; core t / 32, step t % 32) is handed rows 1024·t … 1024·t + 1023 of the embeddings and of the
  labels (the labels as a one-column matrix), and, at every point, the whole centre table and the whole row of the
  centres' squared norms. The squared norms are computed before the launch as the row sums of the centres' squares,
  laid out as a one-row matrix.
-/
import proofs.«430730_j9045201126030_3_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run
import Idealize.ShloMosaic.PureOps.Ideal.Laws
import proofs.«430730_j9045201126030_3_alg».proof.Proof.Spec

noncomputable section

open Idealize.ShloMosaic Idealize.ShloMosaic.TcCoe Idealize.SL.Sem
open Idealize.ShloMosaic.Pipeline (Dat)

namespace Cert.KBlocks

open Cert.KernelIdeal Cert.KernelIdeal.Gen Idealize.ShloMosaic.ValueIdx

variable {F : FTy → Type} [FloatOps F]
variable (m : (ℓ : Loc nD τ sig) → Buf (Elt F) ℓ)

/-- The blocks under names of their literal types. -/
abbrev blkE (c : Dev nD) (t : Fin cfg0.N) : Vec F S1024x64 .f32 := iblk m c 0 t
abbrev blkL (c : Dev nD) (t : Fin cfg0.N) : Vec F S1024x1 .i32 := iblk m c 1 t
abbrev blkC (c : Dev nD) (t : Fin cfg0.N) : Vec F S2048x64 .f32 := iblk m c 2 t
abbrev blkS (c : Dev nD) (t : Fin cfg0.N) : Vec F S1x2048 .f32 := iblk m c 3 t

/-- Where each window's block sits at point t: block row t for the embeddings and the labels, block (0, 0) for the
    centres and their squared norms. -/
theorem idxE : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idxL : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idxC : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idxS : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Row r of the embeddings' block at point t is row 1024·t + r of the embeddings. -/
theorem blkE_apply (c : Dev nD) (t : Fin cfg0.N) (r : Fin 1024) (k : Fin 64) (h : 1024 * t.val + r.val < 65536) :
    blkE m c t (ix2 r k) = m ((c : Thread nD τ).loc main_arg0) (ix2 ⟨1024 * t.val + r.val, h⟩ k) := by
  show iblk m c 0 t (ix2 r k) = _
  unfold iblk
  rw [View.read_apply]
  show V m c main_arg0 _ = _
  rw [V_main_arg0 m c]
  refine congrArg _ (funext fun a => Fin.ext ?_)
  match a with
  | ⟨0, _⟩ => show win0_0.index t 0 * 1024 + 1 * r.val = 1024 * t.val + r.val; rw [(idxE t).1]; omega
  | ⟨1, _⟩ => show win0_0.index t 1 * 64 + 1 * k.val = k.val; rw [(idxE t).2]; omega

/-- The centres' block is the centre table. -/
theorem blkC_apply (c : Dev nD) (t : Fin cfg0.N) (q : Fin 2048) (k : Fin 64) :
    blkC m c t (ix2 q k) = m ((c : Thread nD τ).loc main_arg1) (ix2 q k) := by
  show iblk m c 2 t (ix2 q k) = _
  unfold iblk
  rw [View.read_apply]
  show V m c main_arg1 _ = _
  rw [V_main_arg1 m c]
  refine congrArg _ (funext fun a => Fin.ext ?_)
  match a with
  | ⟨0, _⟩ => show win0_2.index t 0 * 2048 + 1 * q.val = q.val; rw [(idxC t).1]; omega
  | ⟨1, _⟩ => show win0_2.index t 1 * 64 + 1 * k.val = k.val; rw [(idxC t).2]; omega

/-- The labels as the launch finds them: the label vector laid out as one column. -/
theorem V_labels (c : Dev nD) :
    (V m c main_v0 : S65536x1.Idx → Elt F .i32) = shapeCast S65536x1 (m ((c : Thread nD τ).loc main_arg2)) shapeCasts_S65536_S65536x1 := by
  show StableHlo.after hostOps0 (fun b => m (c, b)) (Proc.devRef .tc main_v0) = _
  after_results
  rfl

/-- Row r of the labels' block at point t is label 1024·t + r. -/
theorem blkL_apply (c : Dev nD) (t : Fin cfg0.N) (r : Fin 1024) (h : 1024 * t.val + r.val < 65536) :
    blkL m c t (ix2 r (0 : Fin 1)) = m ((c : Thread nD τ).loc main_arg2) (ix1 ⟨1024 * t.val + r.val, h⟩) := by
  show iblk m c 1 t (ix2 r (0 : Fin 1)) = _
  unfold iblk
  rw [View.read_apply]
  show V m c main_v0 _ = _
  rw [V_labels m c]
  refine shapeCast_apply _ _ _ _ ?_
  show (S65536.rowMajor (ix1 ⟨1024 * t.val + r.val, h⟩)).val
    = (S65536x1.rowMajor (((cfg0.win 1).blk t).view.emb (ix2 r (0 : Fin 1)))).val
  rw [Shape.rowMajor_val_one, Shape.rowMajor_val_two]
  show 1024 * t.val + r.val = (win0_1.index t 0 * 1024 + 1 * r.val) * 1 + (win0_1.index t 1 * 1 + 1 * 0)
  rw [(idxL t).1, (idxL t).2]; omega

/-! ## The squared norms, at the ideal values -/

section AtIdeal

variable (m : (ℓ : Loc nD τ sig) → Buf (Elt Ideal) ℓ)

/-- The centre table under a name of its literal type. -/
abbrev arrC (c : Dev nD) : S2048x64.Idx → EReal := m ((c : Thread nD τ).loc main_arg1)

/-- The squared norms as the launch finds them: the row sums of the centres' squares from the zero word, as one row. -/
theorem V_csq (c : Dev nD) :
    (V m c main_v3 : S1x2048.Idx → EReal)
      = broadcastInDim S1x2048 ![1] bcast_S2048_S1x2048_1
          (Host.reduceAdd (F := Ideal) (mulf (arrC m c) (arrC m c))
            (constant (F := Ideal) S_ .f32 0x00000000#32) reducesTo_S2048x64_S2048_d1 h_S_) := by
  show StableHlo.after hostOps0 (fun b => m (c, b)) (Proc.devRef .tc main_v3) = _
  after_results <;> rfl

/-- Entry (0, q) of the squared norms' block is the squared norm of centre q. -/
theorem blkS_apply (c : Dev nD) (t : Fin cfg0.N) (q : Fin 2048) :
    blkS m c t (ix2 (0 : Fin 1) q) = Cert.Spec.sq (arrC m c) q := by
  show iblk m c 3 t (ix2 (0 : Fin 1) q) = _
  unfold iblk
  rw [View.read_apply]
  show V m c main_v3 _ = _
  rw [V_csq m c]
  refine (broadcastInDim_apply _ bcast_S2048_S1x2048_1 _ _ (ix1 q) (fun a => match a with
    | ⟨0, _⟩ => by
      show q.val = if (2048 : Nat) = 1 then 0 else win0_3.index t 1 * 2048 + 1 * q.val
      rw [if_neg (by decide), (idxS t).2]; omega)).trans ?_
  simp only [Host.reduceAdd, Ideal.hostReduceAdd_def]
  rw [Ideal.hostReduceAdd_single reducesTo_S2048x64_S2048_d1 (by decide)]
  show Ideal.ofBits .f32 0x00000000#32 + _ = _
  rw [Ideal.ofBits_zero_f32, zero_add]
  unfold Cert.Spec.sq
  refine Finset.sum_congr rfl fun k _ => ?_
  have e : ∀ j : S2048x64.Idx, (∀ a : Fin 2, (j a).val = (ix2 q k a).val) →
      arrC m c j * arrC m c j = arrC m c (ix2 q k) * arrC m c (ix2 q k) :=
    fun j hj => by
      have hjq : j = ix2 q k := funext fun a => Fin.ext (hj a)
      subst hjq
      rfl
  exact e _ (fun a => by match a with | ⟨0, _⟩ => rfl | ⟨1, _⟩ => rfl)

end AtIdeal

end Cert.KBlocks

end
-- ==== Proof.KPayload.lean ====
/-
  The kernel body's three payloads read at an index, at the ideal values (extended reals).

  For one block of 1024 rows X : [1024, 64] with labels l : [1024, 1], the centres C : [2048, 64] and their squared
  norms s : [1, 2048], the body forms
    cross(r, q) = Σ_k X(r, k) · C(q, k)            (a product into the zero accumulator, contracting the lane axis of both),
    e(r)        = Σ_k X(r, k) · X(r, k),
    d(r, q)     = sqrt (max (e(r) + s(q) − 2 · cross(r, q)) eps),
    own(r)      = Σ_q (d(r, q) where the 32-bit word of q equals l(r), else 0),
  and returns Σ_r Σ_q max (own(r) − d(r, q)) 0, which is the table loss of the block. The other two payloads add the
  block's loss to every entry of the [1, 8, 128] accumulator, and clear that accumulator.
-/
import proofs.«430730_j9045201126030_3_alg».proof.Proof.Gen.KernelIdeal.Skeleton
import proofs.«430730_j9045201126030_3_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.KPayload

open Cert.KernelIdeal Cert.KernelIdeal.Gen Idealize.ShloMosaic Idealize.ShloMosaic.ValueIdx

/-! ## Layout reads: a column kept as a unit axis -/

section Layout
variable {α : Type}

/-- An [a] array cast to the column [a, 1] reads, at (r, u), the operand at r. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [a, 1] broadcast to [a, b] reads, at (r, q), the column at r. -/
theorem broadcastTo_a1_ab_apply {a b : ℕ} (v : (⟨2, ![a, 1]⟩ : Shape).Idx → α) (h : (⟨2, ![a, 1]⟩ : Shape).Broadcasts ⟨2, ![a, b]⟩)
    (r : Fin a) (q : Fin b) : broadcastTo ⟨2, ![a, b]⟩ v h (ix2 r q) = v (ix2 r (0 : Fin 1)) := by
  refine broadcastTo_apply v h (ix2 r q) (ix2 r (0 : Fin 1)) fun ax => ?_
  match ax with
  | ⟨0, _⟩ =>
    show r.val = if a = 1 then 0 else r.val
    split
    · have := r.isLt; omega
    · rfl
  | ⟨1, _⟩ => rfl

end Layout

/-! ## The reductions of the body at an index -/

/-- The lane sum of a [1024, 64] array at row r. -/
theorem laneSum64_apply (v : FVec Ideal S1024x64 .f32) (r : Fin 1024) :
    multiReduction (F := Ideal) .add [1] S1024 v 0x00000000#32 reduces_S1024x64_S1024 (.inl rfl) rfl (ix1 r)
      = ∑ k : Fin 64, v (ix2 r k) := by
  refine (Ideal.multiReduction_add_single v _ reduces_S1024x64_S1024 (.inl rfl) rfl (ix1 r)).trans ?_
  refine Finset.sum_congr rfl fun k _ => congrArg v (funext fun ax => Fin.ext ?_)
  match ax with
  | ⟨0, _⟩ => rfl
  | ⟨1, _⟩ => rfl

/-- The lane sum of a [1024, 2048] array at row r. -/
theorem laneSum2048_apply (v : FVec Ideal S1024x2048 .f32) (r : Fin 1024) :
    multiReduction (F := Ideal) .add [1] S1024 v 0x00000000#32 reduces_S1024x2048_S1024 (.inl rfl) rfl (ix1 r)
      = ∑ q : Fin 2048, v (ix2 r q) := by
  refine (Ideal.multiReduction_add_single v _ reduces_S1024x2048_S1024 (.inl rfl) rfl (ix1 r)).trans ?_
  refine Finset.sum_congr rfl fun q _ => congrArg v (funext fun ax => Fin.ext ?_)
  match ax with
  | ⟨0, _⟩ => rfl
  | ⟨1, _⟩ => rfl

/-- The sum over the rows of a [1024, 1] column. -/
theorem rowSum_apply (v : FVec Ideal S1024x1 .f32) (u : Fin 1) :
    multiReduction (F := Ideal) .add [0] S1 v 0x00000000#32 reduces_S1024x1_S1 (.inl rfl) rfl (ix1 u)
      = ∑ r : Fin 1024, v (ix2 r (0 : Fin 1)) := by
  refine (Ideal.multiReduction_add_single v _ reduces_S1024x1_S1 (.inl rfl) rfl (ix1 u)).trans ?_
  refine Finset.sum_congr rfl fun r _ => congrArg v (funext fun ax => Fin.ext ?_)
  match ax with
  | ⟨0, _⟩ => rfl
  | ⟨1, _⟩ => show (u : ℕ) = 0; omega

/-! ## The product of the block with the centres, contracting the lane axis of both -/

theorem lhs_cross_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_cross_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_cross_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_cross_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Into the zero accumulator the product reads, at (r, q), the sum over the lane k of A(r, k) · B(q, k). -/
theorem cross_apply {φ₁ φ₂ : FTy} (A : FVec Ideal S1024x64 φ₁) (B : FVec Ideal S2048x64 φ₂) (r : Fin 1024) (q : Fin 2048) :
    matmul (F := Ideal) dot_S1024x64_S2048x64_S1024x2048_1_1_0_0_n_n none A B (constant (F := Ideal) S1024x2048 .f32 0x00000000#32) (ix2 r q)
      = ∑ k : Fin 64, A (ix2 r k) * B (ix2 q k) := by
  show FloatOps.matmul _ none A B _ (ix2 r q) = _
  rw [Ideal.matmul_constant_zero_apply, ← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 r q) ((contrEquiv1 dot_S1024x64_S2048x64_S1024x2048_1_1_0_0_n_n 64 rfl rfl).symm k) = ix2 r k := funext fun a => Fin.ext (by
    match a with
    | ⟨0, _⟩ => exact lhs_cross_0 _ _
    | ⟨1, _⟩ => exact (lhs_cross_1 _ _).trans hk)
  have er : dot_S1024x64_S2048x64_S1024x2048_1_1_0_0_n_n.rhsIdx (ix2 r q) ((contrEquiv1 dot_S1024x64_S2048x64_S1024x2048_1_1_0_0_n_n 64 rfl rfl).symm k) = ix2 q k := funext fun a => Fin.ext (by
    match a with
    | ⟨0, _⟩ => exact rhs_cross_0 _ _
    | ⟨1, _⟩ => exact (rhs_cross_1 _ _).trans hk)
  rw [el, er]

/-! ## The label mask -/

/-- The column index as a 32-bit word. -/
theorem colWord_apply (r : Fin 1024) (q : Fin 2048) :
    iota .tc S1024x2048 32 [1] iota_S1024x2048_d1_w32 (ix2 r q) = BitVec.ofNat 32 q.val :=
  iota_single_apply .tc S1024x2048 32 1 iota_S1024x2048_d1_w32 (ix2 r q)

/-- Selecting on the equality of two words: the first value where they are equal, the second elsewhere. -/
theorem select_cmpi_eq {α : Type} {w : ℕ} (a b : BitVec w) (x y : α) :
    Scalar.select (IntOp.cmpi .eq a b) x y = if a = b then x else y := by
  unfold Scalar.select
  by_cases h : a = b
  · rw [if_pos h]; exact if_pos (StableHlo.Predicate.cmpi_eq_iff.2 h)
  · rw [if_neg h]; exact if_neg (fun hc => h (StableHlo.Predicate.cmpi_eq_iff.1 hc))

/-- The root taken entry by entry. -/
theorem sqrtv_apply {s : Shape} {φ : FTy} (a : FVec Ideal s φ) (i : s.Idx) : sqrt a i = Ideal.sqrt (a i) := rfl

/-! ## The clamped distances of the body -/

/-- The body's distance array at (r, q) is the clamped distance of row r to centre q. -/
theorem dist_read (x0 : FVec Ideal S1024x64 .f32) (x2 : FVec Ideal S2048x64 .f32) (x3 : FVec Ideal S1x2048 .f32)
    (r : Fin 1024) (q : Fin 2048) :
    sqrt (maximumf (subf (addf
        (broadcastTo S1024x2048 (shapeCast S1024x1 (multiReduction (F := Ideal) .add [1] S1024 (mulf x0 x0) 0x00000000#32 reduces_S1024x64_S1024 (.inl rfl) rfl) shapeCasts_S1024_S1024x1) broadcasts_S1024x1_S1024x2048)
        (broadcastTo S1024x2048 (shapeCast S1x2048 x3 shapeCasts_S1x2048_S1x2048) broadcasts_S1x2048_S1024x2048))
        (mulf (broadcast S1024x2048 (Scalar.ofBits (F := Ideal) .f32 0x40000000#32))
          (matmul (F := Ideal) dot_S1024x64_S2048x64_S1024x2048_1_1_0_0_n_n none (truncf .bf16 x0 bitsLt_bf16_f32) (truncf .bf16 x2 bitsLt_bf16_f32) (constant (F := Ideal) S1024x2048 .f32 0x00000000#32))))
      (broadcast S1024x2048 (Scalar.ofBits (F := Ideal) .f32 0x2B8CBCCC#32))) (ix2 r q)
      = Cert.Spec.dist x0 x2 (fun q => x3 (ix2 (0 : Fin 1) q)) r q := by
  show Ideal.sqrt (max (broadcastTo S1024x2048 _ _ (ix2 r q) + broadcastTo S1024x2048 _ _ (ix2 r q)
      - Ideal.ofBits .f32 0x40000000#32 * matmul (F := Ideal) _ none _ _ _ (ix2 r q)) (Ideal.ofBits .f32 0x2B8CBCCC#32)) = _
  rw [broadcastTo_a1_ab_apply, shapeCast_a_a1_apply, laneSum64_apply, broadcastTo_1b_ab_apply, shapeCast_self, cross_apply]
  rfl

/-! ## The body's loss of one block -/

theorem pay3_eq (x0 : Vec Ideal S1024x64 .f32) (x1 : Vec Ideal S1024x1 .i32) (x2 : Vec Ideal S2048x64 .f32) (x3 : Vec Ideal S1x2048 .f32) :
    k0_pay3 (F := Ideal) x0 x1 x2 x3 (ix1 (0 : Fin 1))
      = Cert.Spec.tableLoss x0 x2 (fun q => x3 (ix2 (0 : Fin 1) q)) (fun r => x1 (ix2 r (0 : Fin 1))) := by
  unfold k0_pay3
  refine (rowSum_apply _ 0).trans ?_
  unfold Cert.Spec.tableLoss
  refine Finset.sum_congr rfl fun r _ => ?_
  refine (shapeCast_a_a1_apply _ _ r 0).trans ?_
  refine (laneSum2048_apply _ r).trans ?_
  unfold Cert.Spec.rowLoss
  refine Finset.sum_congr rfl fun q _ => ?_
  show max (broadcastTo S1024x2048 _ _ (ix2 r q) - sqrt _ (ix2 r q)) (Ideal.ofBits .f32 0x00000000#32) = _
  rw [Ideal.ofBits_zero_f32, dist_read x0 x2 x3 r q, broadcastTo_a1_ab_apply, shapeCast_a_a1_apply, laneSum2048_apply]
  unfold Cert.Spec.own
  refine congrArg (fun t => max (t - _) 0) (Finset.sum_congr rfl fun q' _ => ?_)
  show Scalar.select (IntOp.cmpi .eq (iota .tc S1024x2048 32 [1] iota_S1024x2048_d1_w32 (ix2 r q')) (broadcastTo S1024x2048 _ _ (ix2 r q')))
      (sqrt _ (ix2 r q')) (Ideal.ofBits .f32 0x00000000#32) = _
  rw [select_cmpi_eq, colWord_apply, broadcastTo_a1_ab_apply, shapeCast_self, Ideal.ofBits_zero_f32, dist_read x0 x2 x3 r q']

/-! ## The accumulator's two payloads -/

/-- The block's loss added to every entry of the accumulator. -/
theorem pay1_apply (v : FVec Ideal S1 .f32) (y : Vec Ideal S1x8x128 .f32) (a : Fin 1) (s : Fin 8) (l : Fin 128) :
    k0_pay1 (F := Ideal) v y (ix3 a s l) = y (ix3 a s l) + v (ix1 (0 : Fin 1)) := by
  unfold k0_pay1
  show shapeCast S1x8x128 y _ (ix3 a s l) + broadcastTo S1x8x128 _ _ (ix3 a s l) = _
  rw [shapeCast_self]
  refine congrArg (y (ix3 a s l) + ·) ?_
  refine (broadcastTo_apply _ broadcasts_S1x1x1_S1x8x128 (ix3 a s l) (ix3 (0 : Fin 1) (0 : Fin 1) (0 : Fin 1)) fun ax => ?_).trans ?_
  · match ax with
    | ⟨0, _⟩ => rfl
    | ⟨1, _⟩ => rfl
    | ⟨2, _⟩ => rfl
  refine (shapeCast_apply _ shapeCasts_S1x1_S1x1x1 (ix3 (0 : Fin 1) (0 : Fin 1) (0 : Fin 1)) (ix2 (0 : Fin 1) (0 : Fin 1)) (by
    rw [Shape.rowMajor_val_two, Shape.rowMajor_val_three]; rfl)).trans ?_
  exact shapeCast_apply _ shapeCasts_S1_S1x1 (ix2 (0 : Fin 1) (0 : Fin 1)) (ix1 (0 : Fin 1)) (by
    rw [Shape.rowMajor_val_one, Shape.rowMajor_val_two]; rfl)

/-- The cleared accumulator. -/
theorem pay2_apply (i : S1x8x128.Idx) : k0_pay2 (F := Ideal) i = 0 := by
  unfold k0_pay2
  exact Ideal.ofBits_zero_f32

end Cert.KPayload

end
-- ==== Proof.KAccum.lean ====
/-
  The accumulator, point by point.

  Write part(t) for the partial loss of grid point t: the loss of the 1024 rows the point is handed, a function of its
  four input blocks. Each core runs 32 consecutive points; the first of them resets the output block to zero and adds
  its partial loss to every entry, each later one adds its partial loss to every entry of what the point before left.
  So after point n every entry of the block holds the sum of part over the points from the core's first point,
  n - n % 32, up to n. By induction on n; after a core's last point, n % 32 = 31, that is the sum of the core's 32
  partial losses.
-/
import proofs.«430730_j9045201126030_3_alg».proof.Proof.KPieces
import proofs.«430730_j9045201126030_3_alg».proof.Proof.KBlocks
import proofs.«430730_j9045201126030_3_alg».proof.Proof.KPayload

noncomputable section

open scoped BigOperators

open Idealize.ShloMosaic Idealize.ShloMosaic.TcCoe Idealize.SL.Sem
open Idealize.ShloMosaic.Pipeline (Dat)

namespace Cert.KAccum

open Cert.KernelIdeal Cert.KernelIdeal.Gen Idealize.ShloMosaic.ValueIdx Cert.KBlocks

variable (m : (ℓ : Loc nD τ sig) → Buf (Elt Ideal) ℓ)

/-- The partial loss of point t, as the body computes it from the point's blocks. -/
def part (c : Dev nD) (t : Fin cfg0.N) : EReal :=
  k0_pay3 (F := Ideal) (blkE m c t) (blkL m c t) (blkC m c t) (blkS m c t) (ix1 (0 : Fin 1))

/-- The same on the naturals, zero past the grid. -/
def partN (c : Dev nD) (n : ℕ) : EReal := if h : n < cfg0.N then part m c ⟨n, h⟩ else 0

theorem partN_of_lt (c : Dev nD) (n : ℕ) (h : n < cfg0.N) : partN m c n = part m c ⟨n, h⟩ := dif_pos h

/-- A resetting point leaves its own partial loss in every entry. -/
theorem after_reset (c : Dev nD) (t : Fin cfg0.N) (h0 : t.val % 32 = 0) (a : Fin 1) (s : Fin 8) (l : Fin 128) :
    outsAt0 m c t.val t.isLt (ix3 a s l) = part m c t := by
  refine (congrFun ((outsAt0_A m c t h0).trans (Cert.KPieces.out_A c (grid0.coords t) (ms0_0 t) (hs0_0 t) (ms0_1 t) (hs0_1 t) (ms0_2 t) (hs0_2 t) (ms0_3 t) (hs0_3 t) (ms0_4 t) (hs0_4 t)
    ((hcond0_0 t).mpr h0) (iblk m c 0 t) (iblk m c 1 t) (iblk m c 2 t) (iblk m c 3 t))) (ix3 a s l)).trans ?_
  rw [Cert.KPayload.pay1_apply, Cert.KPayload.pay2_apply, zero_add]
  rfl

/-- Any other point adds its partial loss to what the point before left. -/
theorem after_step (c : Dev nD) (t : Fin cfg0.N) (h0 : ¬t.val % 32 = 0) (a : Fin 1) (s : Fin 8) (l : Fin 128) :
    outsAt0 m c t.val t.isLt (ix3 a s l)
      = outsAt0 m c (t.val - 1) (Nat.lt_of_le_of_lt (Nat.sub_le _ _) t.isLt) (ix3 a s l) + part m c t := by
  refine (congrFun ((outsAt0_B m c t h0).trans (Cert.KPieces.out_B c (grid0.coords t) (ms0_0 t) (hs0_0 t) (ms0_1 t) (hs0_1 t) (ms0_2 t) (hs0_2 t) (ms0_3 t) (hs0_3 t) (ms0_4 t) (hs0_4 t)
    (fun h => h0 ((hcond0_0 t).mp h)) (iblk m c 0 t) (iblk m c 1 t) (iblk m c 2 t) (iblk m c 3 t)
    (outsAt0 m c (t.val - 1) (Nat.lt_of_le_of_lt (Nat.sub_le _ _) t.isLt)))) (ix3 a s l)).trans ?_
  rw [Cert.KPayload.pay1_apply]
  rfl

/-- After point n every entry holds the partial losses of the points n - n % 32, …, n, summed. -/
theorem acc_eq (c : Dev nD) : ∀ (n : ℕ) (h : n < cfg0.N) (a : Fin 1) (s : Fin 8) (l : Fin 128),
    outsAt0 m c n h (ix3 a s l) = ∑ i ∈ Finset.range (n % 32 + 1), partN m c (n - n % 32 + i)
  | 0, h, a, s, l => by
    rw [show outsAt0 m c 0 h (ix3 a s l) = part m c ⟨0, h⟩ from after_reset m c ⟨0, h⟩ rfl a s l]
    rw [show (0 : ℕ) % 32 + 1 = 1 from rfl, Finset.sum_range_one, partN_of_lt m c _ h]
  | n + 1, h, a, s, l => by
    by_cases h0 : (n + 1) % 32 = 0
    · rw [show outsAt0 m c (n + 1) h (ix3 a s l) = part m c ⟨n + 1, h⟩ from after_reset m c ⟨n + 1, h⟩ h0 a s l]
      rw [h0, Finset.sum_range_one]
      exact (partN_of_lt m c (n + 1) h).symm
    · rw [show outsAt0 m c (n + 1) h (ix3 a s l)
          = outsAt0 m c n (Nat.lt_of_succ_lt h) (ix3 a s l) + part m c ⟨n + 1, h⟩ from after_step m c ⟨n + 1, h⟩ h0 a s l]
      rw [acc_eq c n (Nat.lt_of_succ_lt h) a s l]
      have e1 : (n + 1) % 32 = n % 32 + 1 := by omega
      have e2 : n + 1 - (n % 32 + 1) = n - n % 32 := by omega
      have e3 : n - n % 32 + (n % 32 + 1) = n + 1 := by omega
      rw [e1, e2, Finset.sum_range_succ (n := n % 32 + 1), e3, partN_of_lt m c _ h]

/-- After the last point of core a, every entry holds the core's 32 partial losses, summed. -/
theorem core_total (c : Dev nD) (a : Fin 2) (h : 32 * a.val + 31 < cfg0.N) (a' : Fin 1) (s : Fin 8) (l : Fin 128) :
    outsAt0 m c (32 * a.val + 31) h (ix3 a' s l) = ∑ i ∈ Finset.range 32, partN m c (32 * a.val + i) := by
  rw [acc_eq m c _ h a' s l]
  have e1 : (32 * a.val + 31) % 32 = 31 := by omega
  have e2 : 32 * a.val + 31 - 31 = 32 * a.val := by omega
  rw [e1, e2]

end Cert.KAccum

end
-- ==== Proof.SumAlg.lean ====
/-
  Regrouping of finite sums: the 65536 rows are 64 consecutive blocks of 1024 rows, row n being row r of block t
  for n = 1024·t + r; and a sum over the first 64 naturals splits into the first 32 and the next 32.
  Addition of extended reals is commutative and associative, so no finiteness is needed here.
-/
import Mathlib.Algebra.BigOperators.Fin
import Mathlib.Data.EReal.Basic
import Mathlib.Logic.Equiv.Fin.Basic

noncomputable section

open scoped BigOperators

namespace Cert.SumAlg

/-- A sum over all rows, block by block. -/
theorem sum_rows (f : Fin 65536 → EReal) :
    ∑ n : Fin 65536, f n
      = ∑ t : Fin 64, ∑ r : Fin 1024, f ⟨1024 * t.val + r.val, by have := t.isLt; have := r.isLt; omega⟩ := by
  rw [← (finProdFinEquiv (m := 64) (n := 1024)).sum_comp (g := f), Fintype.sum_prod_type]
  refine Finset.sum_congr rfl fun t _ => Finset.sum_congr rfl fun r _ => congrArg f (Fin.ext ?_)
  show r.val + 1024 * t.val = 1024 * t.val + r.val
  omega

/-- The first 64 terms are the first 32 and the 32 after them. -/
theorem sum_two_halves (g : ℕ → EReal) :
    ∑ i ∈ Finset.range 32, g i + ∑ i ∈ Finset.range 32, g (32 + i) = ∑ t ∈ Finset.range 64, g t := by
  rw [show (64 : ℕ) = 32 + 32 from rfl, Finset.sum_range_add]

end Cert.SumAlg

end
-- ==== Proof.KFinal.lean ====
/-
  The kernel's result, read off its run.

  The output array [2, 8, 128] has one slab [1, 8, 128] per core, written back once, after the core's last point
  (points 31 and 63). At that moment every entry of the slab holds the sum of the core's 32 partial losses. The two
  write-backs cover the array, so after the launch entry (a, s, l) holds the total of core a. The lines after the
  launch take entries (0, 0, 0) and (1, 0, 0) and add them: the result is the sum of all 64 partial losses.
-/
import proofs.«430730_j9045201126030_3_alg».proof.Proof.KAccum
import proofs.«430730_j9045201126030_3_alg».proof.Proof.SumAlg
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KFinal

open Cert.KernelIdeal Cert.KernelIdeal.Gen Idealize.ShloMosaic.ValueIdx Cert.KAccum

variable (m : (ℓ : Loc nD τ sig) → Buf (Elt Ideal) ℓ) (ρ : Dev nD → PrngReg)

/-- What the output array ends holding: every entry of core a's slab is the sum of the core's 32 partial losses. -/
def G (c : Dev nD) : S2x8x128.Idx → EReal := fun j => ∑ i ∈ Finset.range 32, partN m c (32 * (j 0).val + i)

/-- The output's block at point t is slab t / 32. -/
theorem idxO : ∀ t : Fin cfg0.N, win0_4.index t (0 : Fin 3) = t.val / 32 ∧ win0_4.index t (1 : Fin 3) = 0
    ∧ win0_4.index t (2 : Fin 3) = 0 :=
  (by decide +kernel : ∀ t : Fin grid0.N, win0_4.index t (0 : Fin 3) = t.val / 32 ∧ win0_4.index t (1 : Fin 3) = 0
    ∧ win0_4.index t (2 : Fin 3) = 0)

/-- What a writing-back point writes back is its slab of G. -/
theorem flushed_eq (c : Dev nD) (t : Fin cfg0.N) (hf : (cfg0.win 4).flush t = true) :
    (dats m 0 c).flushed 4 t = ((cfg0.win 4).blk t).view.read (Elt Ideal) (G m c) := by
  have h31 : t.val % 32 = 31 := (flush0_4 t).mp hf
  have hi := idxO t
  show (cfg0.win 4).cut (grid0.coords t) ((dats m 0 c).after 4 t) = _
  rw [after0_4]
  funext j
  obtain ⟨a', s, l, rfl⟩ : ∃ (a' : Fin 1) (s : Fin 8) (l : Fin 128), j = ix3 a' s l := ⟨j 0, j 1, j 2, eq_ix3 j⟩
  show outsAt0 m c t.val t.isLt (ix3 a' s l) = G m c (((cfg0.win 4).blk t).view.emb (ix3 a' s l))
  rw [acc_eq m c t.val t.isLt a' s l]
  unfold G
  have e0 : (((cfg0.win 4).blk t).view.emb (ix3 a' s l) 0).val = t.val / 32 := by
    show win0_4.index t 0 * 1 + 1 * a'.val = t.val / 32
    rw [hi.1]; have := a'.isLt; omega
  have e2 : t.val - 31 = 32 * (t.val / 32) := by omega
  rw [e0, h31, e2]

/-- An index is in point t's slab iff each coordinate is in the slab's range on its axis. -/
theorem mem_blk (t : Fin cfg0.N) (i : S2x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v4).slice (win0_4.rect t)).set ↔ _
  rw [View.set_slice_whole, Rect.mem_set_unit]
  exact Iff.rfl

/-- Every index of the array is in the slab some writing-back point writes: entry (a, s, l) in that of point 32a + 31. -/
theorem cover (i : S2x8x128.Idx) : ∃ t : Fin cfg0.N, (cfg0.win 4).flush t = true ∧ i ∈ ((cfg0.win 4).blk t).view.set := by
  have h0 : (i 0).val < 2 := (i 0).isLt
  have h1 : (i 1).val < 8 := (i 1).isLt
  have h2 : (i 2).val < 128 := (i 2).isLt
  have hN : cfg0.N = 64 := N_0
  have hN' : grid0.N = 64 := N_0
  refine ⟨⟨32 * (i 0).val + 31, by omega⟩, (flush0_4 _).mpr (by show (32 * (i 0).val + 31) % 32 = 31; omega), ?_⟩
  rw [mem_blk]
  obtain ⟨e0, e1, e2⟩ := idxO ⟨32 * (i 0).val + 31, by omega⟩
  have e0' : win0_4.index ⟨32 * (i 0).val + 31, by omega⟩ (0 : Fin 3) = (i 0).val := by
    rw [e0]; show (32 * (i 0).val + 31) / 32 = (i 0).val; omega
  intro a
  match a with
  | ⟨0, _⟩ =>
    show win0_4.index ⟨32 * (i 0).val + 31, _⟩ (0 : Fin 3) * 1 ≤ (i 0).val
      ∧ (i 0).val < win0_4.index ⟨32 * (i 0).val + 31, _⟩ (0 : Fin 3) * 1 + 1
    rw [e0']; omega
  | ⟨1, _⟩ =>
    show win0_4.index ⟨32 * (i 0).val + 31, _⟩ (1 : Fin 3) * 8 ≤ (i 1).val
      ∧ (i 1).val < win0_4.index ⟨32 * (i 0).val + 31, _⟩ (1 : Fin 3) * 8 + 8
    rw [e1]; omega
  | ⟨2, _⟩ =>
    show win0_4.index ⟨32 * (i 0).val + 31, _⟩ (2 : Fin 3) * 128 ≤ (i 2).val
      ∧ (i 2).val < win0_4.index ⟨32 * (i 0).val + 31, _⟩ (2 : Fin 3) * 128 + 128
    rw [e2]; omega

/-- So the output array ends holding G. -/
theorem final (c : Dev nD) : (dats m 0 c).arrAt 4 cfg0.N = G m c :=
  (dats m 0 c).arrAt_eq_of_cover 4 (G m c) (flushed_eq m c) (cover)

/-- The sum of all 64 partial losses. -/
def total (c : Dev nD) : EReal := ∑ t ∈ Finset.range 64, partN m c t

/-- An index type with one element has only the position 0. -/
theorem val_zero_of_one {n : ℕ} (hn : n = 1) (a : Fin n) : a.val = 0 := by
  subst hn
  exact Fin.val_eq_zero a

/-- The one-entry slice at (a, 0, 0), read as a scalar, is the array's entry (a, 0, 0). -/
theorem corner_read (X : S2x8x128.Idx → EReal) (a : Fin 2) (off : Fin 3 → Nat) (hoff : off = ![a.val, 0, 0])
    (hs : S2x8x128.Slices off S1x1x1) (x : S_.Idx) :
    shapeCast S_ (extractStridedSlice S1x1x1 off X hs) shapeCasts_S1x1x1_S_ x = X (ix3 a (0 : Fin 8) (0 : Fin 128)) := by
  subst hoff
  refine (shapeCast_apply _ shapeCasts_S1x1x1_S_ x (ix3 (0 : Fin 1) (0 : Fin 1) (0 : Fin 1)) ?_).trans ?_
  · exact (val_zero_of_one (by decide) _).trans (val_zero_of_one (by decide) _).symm
  · exact extractStridedSlice_apply _ X hs _ (ix3 a (0 : Fin 8) (0 : Fin 128)) (fun ax => by
      match ax with
      | ⟨0, _⟩ => show a.val = a.val + 0; omega
      | ⟨1, _⟩ => rfl
      | ⟨2, _⟩ => rfl)

/-- The lines after the launch: entry (0, 0, 0) plus entry (1, 0, 0) of the output array, which is the total. -/
theorem tail_eq (c : Dev nD) :
    (Pipeline.afterTail₀ cfgs (dats m) 0 (V0 m) [hostOps1] c main_v9 : S_.Idx → EReal) = fun _ => total m c := by
  unfold Pipeline.afterTail₀
  show StableHlo.after hostOps1 _ (Proc.devRef .tc main_v9) = _
  after_results
  have hW : Pipeline.withArrays (cfgs 0).spec c (V0 m c) (fun w => (dats m 0 c).arrAt w (cfgs 0).N)
      (Proc.devRef .tc main_v4) = G m c :=
    (Pipeline.withArrays_arr spec0 launch0.win.arr_inj c _ _ 4).trans (final m c)
  rw [hW]
  funext x
  show shapeCast S_ (extractStridedSlice S1x1x1 ![0, 0, 0] (G m c) slices_S2x8x128_S1x1x1_0_0_0) shapeCasts_S1x1x1_S_ x
      + shapeCast S_ (extractStridedSlice S1x1x1 ![1, 0, 0] (G m c) slices_S2x8x128_S1x1x1_1_0_0) shapeCasts_S1x1x1_S_ x
    = total m c
  refine (congrArg₂ (· + ·) (corner_read (G m c) 0 ![0, 0, 0] rfl slices_S2x8x128_S1x1x1_0_0_0 x)
    (corner_read (G m c) 1 ![1, 0, 0] rfl slices_S2x8x128_S1x1x1_1_0_0 x)).trans ?_
  unfold total
  rw [← Cert.SumAlg.sum_two_halves]
  unfold G
  refine congrArg₂ (· + ·) (Finset.sum_congr rfl fun i _ => ?_) (Finset.sum_congr rfl fun i _ => ?_)
  · show partN m c (32 * 0 + i) = partN m c i
    rw [Nat.mul_zero, Nat.zero_add]
  · show partN m c (32 * 1 + i) = partN m c (32 + i)
    rw [Nat.mul_one]

/-- The run, read: the result is the total of the partial losses; the three arguments are unchanged. -/
theorem run : θ_run defs (onTc (τ := τ) (main (F := Ideal))) ⟨m, fun _ => 0, ρ⟩ fun r => ∀ c : Dev nD,
      r.2.mem ((c.tc : Thread nD τ).loc main_v9) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KFinal

end
-- ==== Proof.KValue.lean ====
/-
  The kernel's result is the loss of its three arguments.

  The partial loss of point t is the loss of the table of the 1024 rows the point is handed, against the whole centre
  table and the centres' squared norms. Row r of that table is row 1024·t + r of the embeddings and carries label
  1024·t + r, so its squared norm, its inner products with the centres and hence its 2048 clamped distances are those
  of row 1024·t + r of the whole table; the squared norms handed in are the centres' own. So the partial loss of point t
  is the sum of the losses of rows 1024·t, …, 1024·t + 1023, and the 64 partial losses sum to the loss of all 65536
  rows.
-/
import proofs.«430730_j9045201126030_3_alg».proof.Proof.KFinal

noncomputable section

open scoped BigOperators

open Idealize.ShloMosaic Idealize.ShloMosaic.TcCoe Idealize.SL.Sem

namespace Cert.KValue

open Cert.KernelIdeal Cert.KernelIdeal.Gen Idealize.ShloMosaic.ValueIdx Cert.KBlocks Cert.KAccum Cert.KFinal

variable (m : (ℓ : Loc nD τ sig) → Buf (Elt Ideal) ℓ)

/-- The embeddings and the labels under names of their literal types (the centres' is arrC). -/
abbrev arrE (c : Dev nD) : S65536x64.Idx → EReal := m ((c : Thread nD τ).loc main_arg0)
abbrev arrL (c : Dev nD) : S65536.Idx → BitVec 32 := m ((c : Thread nD τ).loc main_arg2)

theorem row_lt (t : Fin cfg0.N) (r : Fin 1024) : 1024 * t.val + r.val < 65536 := by
  have := lt_of_lt_of_eq t.isLt (show cfg0.N = 64 from N_0); have := r.isLt; omega

/-- Row r of point t's block has the distances of row 1024·t + r of the whole table. -/
theorem dist_blk (c : Dev nD) (t : Fin cfg0.N) (r : Fin 1024) (q : Fin 2048) :
    Cert.Spec.dist (blkE m c t) (blkC m c t) (fun q => blkS m c t (ix2 (0 : Fin 1) q)) r q
      = Cert.Spec.dist (arrE m c) (arrC m c) (Cert.Spec.sq (arrC m c)) ⟨1024 * t.val + r.val, row_lt t r⟩ q := by
  unfold Cert.Spec.dist Cert.Spec.sq Cert.Spec.dot
  simp only [blkE_apply m c t r _ (row_lt t r), blkC_apply m c t, blkS_apply m c t]
  rfl

/-- The partial loss of point t is the sum of the losses of its 1024 rows of the whole table. -/
theorem part_eq (c : Dev nD) (t : Fin cfg0.N) :
    part m c t = ∑ r : Fin 1024, Cert.Spec.rowLoss
      (Cert.Spec.dist (arrE m c) (arrC m c) (Cert.Spec.sq (arrC m c)) ⟨1024 * t.val + r.val, row_lt t r⟩)
      (arrL m c (ix1 ⟨1024 * t.val + r.val, row_lt t r⟩)) := by
  unfold part
  rw [Cert.KPayload.pay3_eq]
  unfold Cert.Spec.tableLoss
  refine Finset.sum_congr rfl fun r _ => ?_
  show Cert.Spec.rowLoss _ (blkL m c t (ix2 r (0 : Fin 1))) = _
  rw [blkL_apply m c t r (row_lt t r)]
  exact congrArg (fun d => Cert.Spec.rowLoss d _) (funext fun q => dist_blk m c t r q)

/-- The 64 partial losses sum to the loss. -/
theorem total_eq (c : Dev nD) : total m c = Cert.Spec.loss (arrE m c) (arrC m c) (arrL m c) := by
  unfold total Cert.Spec.loss Cert.Spec.tableLoss
  rw [Cert.SumAlg.sum_rows, Finset.sum_range]
  refine Finset.sum_congr rfl fun t _ => ?_
  have ht : t.val < cfg0.N := lt_of_lt_of_eq t.isLt (show (64 : ℕ) = cfg0.N from N_0.symm)
  rw [partN_of_lt m c t.val ht, part_eq m c ⟨t.val, ht⟩]

end Cert.KValue

end
-- ==== Proof.RefValue.lean ====
/-
  The reference program's result, read as the loss.

  The program forms the table of clamped distances
    d(n, q) = sqrt (max (|E_n|² + |C_q|² - Σ_k (2 · E[n,k]) · C[q,k]) eps),
  picks for each row n the entry at its label (an index array built from the labels, an in-bounds mask, a gather along
  the centre axis and a select on the mask), and sums max (d(n, label n) - d(n, q)) 0 over all rows n and centres q.

  Three facts turn this into the loss of the three arguments.
  * The cross term: the program doubles the row before the contraction. For finite entries
    Σ_k (2 · E[n,k]) · C[q,k] = 2 · Σ_k E[n,k] · C[q,k]; on the extended reals this needs the entries finite, since the
    product does not distribute over sums at the infinities. This is the only place finiteness is used.
  * The labels: a label below 2048 is, as a signed word, neither negative nor above 2047. So the index array is the label
    array, every row is in bounds, the gather's clamp of the start index does nothing, and the entry picked for row n is
    d(n, label n): the masked sum over the columns that the loss is written with has exactly that one nonzero term.
  * The sum over the index set of the 65536 x 2048 table is the double sum over rows and centres.
-/
import proofs.«430730_j9045201126030_3_alg».proof.Proof.RefRead
import proofs.«430730_j9045201126030_3_alg».proof.Proof.Spec
import Idealize.ShloMosaic.Lib.ValueIdx
import Idealize.ShloMosaic.Lib.Pipeline.Value
import Idealize.ShloMosaic.PureOps.Ideal.Laws
import Idealize.ShloMosaic.PureOps.Reduce
import Mathlib.Data.EReal.Operations
import Mathlib.Algebra.BigOperators.Group.Finset.Basic

noncomputable section

open scoped BigOperators

namespace Cert.RefValue

open Cert.ReferenceIdeal Cert.ReferenceIdeal.Gen Cert.ReferenceIdeal.ReadP Idealize.ShloMosaic Idealize.ShloMosaic.ValueIdx

/-! ## Real sums inside the extended reals -/

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- A real factor comes out of a sum of products of reals (on the extended reals this needs every term finite). -/
theorem sum_scale_left {ι : Type} [Fintype ι] (t : EReal) (ht : ∃ r : ℝ, t = (r : EReal)) (f g : ι → EReal)
    (hf : ∀ k, ∃ r : ℝ, f k = (r : EReal)) (hg : ∀ k, ∃ r : ℝ, g k = (r : EReal)) :
    ∑ k, (t * f k) * g k = t * ∑ k, f k * g k := by
  obtain ⟨t', rfl⟩ := ht
  choose f' hf' using hf
  choose g' hg' using hg
  simp only [hf', hg', ← EReal.coe_mul]
  rw [coe_sum, coe_sum, ← EReal.coe_mul, Finset.mul_sum]
  congr 1
  exact Finset.sum_congr rfl fun k _ => mul_assoc _ _ _

/-- The factor 2 is a real number. -/
theorem two_real : ∃ r : ℝ, Cert.Spec.two = (r : EReal) := by
  unfold Cert.Spec.two Ideal.ofBits Ideal.ieee
  simp only
  rw [if_neg (by decide)]
  split_ifs <;> exact ⟨_, rfl⟩

/-! ## The distance table -/

/-- Row n's squared norm, as the program sums it (from the zero word). -/
theorem rowsq_apply (E : FVec Ideal S65536x64 .f32) (n : Fin 65536) (q : Fin 2048) :
    val_main_v6 (F := Ideal) E (ix2 n q) = Cert.Spec.sq E n := by
  rw [val_main_v6_apply, val_main_v2_apply, val_main_v1_apply, val_main_cst_apply, Ideal.ofBits_def,
    Ideal.ofBits_zero_f32, zero_add]
  unfold Cert.Spec.sq
  refine Finset.sum_congr rfl fun k _ => ?_
  rw [val_main_v0_apply, Ideal.mulf_def]
  have e : idx_main_v1 (idx_main_v2 (idx_main_v6 (ix2 n q))) k = ix2 n k :=
    funext fun a => by match a with | ⟨0, _⟩ => rfl | ⟨1, _⟩ => rfl
  rw [e]

/-- Centre q's squared norm, as the program sums it (from the zero word). -/
theorem censq_apply (C : FVec Ideal S2048x64 .f32) (n : Fin 65536) (q : Fin 2048) :
    val_main_v7 (F := Ideal) C (ix2 n q) = Cert.Spec.sq C q := by
  rw [val_main_v7_apply, val_main_v5_apply, val_main_v4_apply, val_main_cst_0_apply, Ideal.ofBits_def,
    Ideal.ofBits_zero_f32, zero_add]
  unfold Cert.Spec.sq
  refine Finset.sum_congr rfl fun k _ => ?_
  rw [val_main_v3_apply, Ideal.mulf_def]
  have e : idx_main_v4 (idx_main_v5 (idx_main_v7 (ix2 n q))) k = ix2 q k :=
    funext fun a => by match a with | ⟨0, _⟩ => rfl | ⟨1, _⟩ => rfl
  rw [e]

/-- The cross term: the program doubles row n before the contraction; for finite entries that is twice the inner
    product. -/
theorem cross_apply (E : FVec Ideal S65536x64 .f32) (C : FVec Ideal S2048x64 .f32)
    (hE : ∀ i, ∃ r : ℝ, E i = (r : EReal)) (hC : ∀ i, ∃ r : ℝ, C i = (r : EReal)) (n : Fin 65536) (q : Fin 2048) :
    val_main_v12 (F := Ideal) E C (ix2 n q) = Cert.Spec.two * Cert.Spec.dot E C n q := by
  rw [val_main_v12_apply]
  unfold Cert.Spec.dot
  refine Eq.trans ?_ (sum_scale_left Cert.Spec.two two_real (fun k => E (ix2 n k)) (fun k => C (ix2 q k))
    (fun k => hE _) (fun k => hC _))
  refine Finset.sum_congr rfl fun k _ => ?_
  rw [val_main_v10_apply, val_main_v9_apply, val_main_cst_1_apply, val_main_v11_apply, Ideal.mulf_def, Ideal.ofBits_def]
  have el : lidx_main_v12 (ix2 n q) k = ix2 n k :=
    funext fun a => by match a with | ⟨0, _⟩ => rfl | ⟨1, _⟩ => rfl
  have er : idx_main_v11 (ridx_main_v12 (ix2 n q) k) = ix2 q k :=
    funext fun a => by match a with | ⟨0, _⟩ => rfl | ⟨1, _⟩ => rfl
  rw [el, er]
  rfl

/-- The program's distance table at (n, q) is the clamped distance of row n to centre q. -/
theorem dists_apply (E : FVec Ideal S65536x64 .f32) (C : FVec Ideal S2048x64 .f32)
    (hE : ∀ i, ∃ r : ℝ, E i = (r : EReal)) (hC : ∀ i, ∃ r : ℝ, C i = (r : EReal)) (n : Fin 65536) (q : Fin 2048) :
    val_main_v16 (F := Ideal) E C (ix2 n q) = Cert.Spec.dist E C (Cert.Spec.sq C) n q := by
  rw [val_main_v16_apply, val_main_v15_apply, val_main_v13_apply, val_main_v8_apply, rowsq_apply, censq_apply,
    cross_apply E C hE hC, val_main_v14_apply, val_main_cst_2_apply]
  rfl

/-! ## The label words: the index array and the in-bounds mask -/

/-- A word below 2048 is a nonnegative signed integer: its signed value is its unsigned one. -/
theorem toInt_of_lt (l : BitVec 32) (h : l.toNat < 2048) : l.toInt = (l.toNat : Int) :=
  BitVec.toInt_eq_toNat_of_lt (by omega)

/-- Such a word is not below zero … -/
theorem slt_zero (l : BitVec 32) (h : l.toNat < 2048) : IntOp.cmpi .slt l 0#32 = 0#1 := by
  have hi := toInt_of_lt l h
  have : l.slt 0#32 = false := by
    rw [BitVec.slt, decide_eq_false_iff_not, hi]
    simp
  show BitVec.ofBool (l.slt 0#32) = 0#1
  rw [this]; rfl

/-- … is at least zero … -/
theorem sge_zero (l : BitVec 32) (h : l.toNat < 2048) : IntOp.cmpi .sge l 0#32 = 1#1 := by
  have hi := toInt_of_lt l h
  have : (0#32 : BitVec 32).sle l = true := by
    rw [BitVec.sle, decide_eq_true_iff, hi]
    simp
  show BitVec.ofBool ((0#32 : BitVec 32).sle l) = 1#1
  rw [this]; rfl

/-- … and is at most 2047. -/
theorem sle_2047 (l : BitVec 32) (h : l.toNat < 2048) : IntOp.cmpi .sle l 2047#32 = 1#1 := by
  have hi := toInt_of_lt l h
  have : l.sle 2047#32 = true := by
    rw [BitVec.sle, decide_eq_true_iff, hi]
    have : (2047#32 : BitVec 32).toInt = 2047 := by decide
    rw [this]; omega
  show BitVec.ofBool (l.sle 2047#32) = 1#1
  rw [this]; rfl

/-- For labels in range the wrapped index array is the label array itself: no label is negative, so none is shifted. -/
theorem idx_apply (L : IVec S65536 32) (hL : ∀ i, (L i).toNat < 2048) (a : Fin 65536) (b c : Fin 1) :
    val_main_call0_v5 (F := Ideal) L (ix3 a b c) = L (ix1 a) := by
  have e : idx_main_v17 (idx_main_call0_v5 (ix3 a b c)) = ix1 a := by
    funext d
    match d with
    | ⟨0, _⟩ =>
      refine Fin.ext ?_
      show ((a.val * 1 + b.val) * 1 + c.val) / 1 = a.val
      have hb := b.isLt; have hc := c.isLt; omega
  rw [val_main_call0_v5_apply, val_main_call0_v4_apply, val_main_call0_v1_apply, val_main_v17_apply,
    val_main_call0_v0_apply, val_main_call0_c_apply, e, slt_zero _ (hL _), select_zero]

/-- A fold by "and" from 1 over words that are all 1 is 1. -/
theorem foldl_andi_one {ι : Type} (g : ι → BitVec 1) (hg : ∀ n, g n = 1#1) (l : List ι) :
    l.foldl (fun r n => IntOp.andi r (g n)) 1#1 = 1#1 := by
  induction l with
  | nil => rfl
  | cons a l ih =>
    rw [List.foldl_cons, hg a, show IntOp.andi 1#1 1#1 = 1#1 from by decide]
    exact ih

/-- A reduction by "and", from 1, of an array of 1s is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) (fun n => hx _) _

/-- For labels in range every row is in bounds. -/
theorem mask_apply (L : IVec S65536 32) (hL : ∀ i, (L i).toNat < 2048) (j : S65536x1.Idx) :
    val_main_call0_v12 (F := Ideal) L j = 1#1 := by
  unfold val_main_call0_v12
  refine reduce_andi_ones _ _ _ _ (fun i => ?_) (fun i => rfl) j
  obtain ⟨a, b, c, rfl⟩ : ∃ a b c, i = ix3 a b c := ⟨_, _, _, eq_ix3 i⟩
  rw [val_main_call0_v11_apply, val_main_call0_v7_apply, val_main_call0_v10_apply, idx_apply L hL,
    val_main_call0_v6_apply, val_main_call0_c_2_apply, val_main_call0_v9_apply, val_main_call0_v8_apply,
    val_main_call0_c_1_apply, sge_zero _ (hL _), sle_2047 _ (hL _)]
  decide

/-! ## The gather along the centre axis, read at a row -/

/-- The gather of one entry per row: row n of the result reads the table at row n (the batching axis) and at the
    column its start index names, read signed and clamped into the table's 2048 columns. -/
theorem gather_row_apply {α : Type} (x : S65536x2048.Idx → α) (idx : IVec S65536x1x1 32) (n : Fin 65536) :
    Host.gather gather_S65536x2048_S65536x1x1_S65536x1_n_1_0_0_1_2_11 x idx (ix2 n 0)
      = x (ix2 n ⟨min (idx (ix3 n 0 0)).toInt.toNat 2047, by omega⟩) := by
  unfold Host.gather
  congr 1
  funext a
  refine Fin.ext ?_
  match a with
  | ⟨0, _⟩ =>
    show gather_S65536x2048_S65536x1x1_S65536x1_n_1_0_0_1_2_11.start (ix2 n 0) idx 0
        + gather_S65536x2048_S65536x1x1_S65536x1_n_1_0_0_1_2_11.batchCoord (ix2 n 0) 0
        + gather_S65536x2048_S65536x1x1_S65536x1_n_1_0_0_1_2_11.offCoord (ix2 n 0) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin S65536x2048.rank) ∈ gather_S65536x2048_S65536x1x1_S65536x1_n_1_0_0_1_2_11.operandBatchingDims
      from List.mem_singleton.mpr rfl)]
    rfl
  | ⟨1, _⟩ =>
    show gather_S65536x2048_S65536x1x1_S65536x1_n_1_0_0_1_2_11.start (ix2 n 0) idx 1
        + gather_S65536x2048_S65536x1x1_S65536x1_n_1_0_0_1_2_11.batchCoord (ix2 n 0) 1
        + gather_S65536x2048_S65536x1x1_S65536x1_n_1_0_0_1_2_11.offCoord (ix2 n 0) 1
      = min (idx (ix3 n 0 0)).toInt.toNat 2047
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin S65536x2048.rank) ∈ gather_S65536x2048_S65536x1x1_S65536x1_n_1_0_0_1_2_11.startIndexMap
      from List.mem_singleton.mpr rfl)]
    have hsi : gather_S65536x2048_S65536x1x1_S65536x1_n_1_0_0_1_2_11.siIdx (ix2 n 0)
        ⟨List.idxOf (1 : Fin S65536x2048.rank) gather_S65536x2048_S65536x1x1_S65536x1_n_1_0_0_1_2_11.startIndexMap,
          List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hsi]
    rfl

/-! ## The result -/

/-- The own-class entry the program selects for row n: under the range of the labels the mask is set, the index is the
    label, and the clamp does nothing, so it is the distance at the label. -/
theorem picked_apply (E : FVec Ideal S65536x64 .f32) (C : FVec Ideal S2048x64 .f32) (L : IVec S65536 32)
    (hE : ∀ i, ∃ r : ℝ, E i = (r : EReal)) (hC : ∀ i, ∃ r : ℝ, C i = (r : EReal)) (hL : ∀ i, (L i).toNat < 2048)
    (n : Fin 65536) :
    val_main_v18 (F := Ideal) E C L (ix2 n 0)
      = Cert.Spec.own (Cert.Spec.dist E C (Cert.Spec.sq C) n) (L (ix1 n)) := by
  rw [val_main_v18_apply, mask_apply L hL, select_one, Cert.Spec.own_eq _ _ (hL _)]
  unfold val_main_call0_v13
  rw [gather_row_apply, ← dists_apply E C hE hC]
  refine congrArg (val_main_v16 (F := Ideal) E C) ?_
  have hl := hL (ix1 n)
  have hv : (val_main_call0_v5 (F := Ideal) L (ix3 n 0 0)).toInt.toNat = (L (ix1 n)).toNat := by
    rw [idx_apply L hL, toInt_of_lt _ hl]; rfl
  funext a
  match a with
  | ⟨0, _⟩ => rfl
  | ⟨1, _⟩ =>
    refine Fin.ext ?_
    show min (val_main_call0_v5 (F := Ideal) L (ix3 n 0 0)).toInt.toNat 2047 = (L (ix1 n)).toNat
    rw [hv]; omega

/-- One term of the program's final sum is one term of the row's loss. -/
theorem term_apply (E : FVec Ideal S65536x64 .f32) (C : FVec Ideal S2048x64 .f32) (L : IVec S65536 32)
    (hE : ∀ i, ∃ r : ℝ, E i = (r : EReal)) (hC : ∀ i, ∃ r : ℝ, C i = (r : EReal)) (hL : ∀ i, (L i).toNat < 2048)
    (n : Fin 65536) (q : Fin 2048) :
    val_main_v21 (F := Ideal) E C L (ix2 n q)
      = max (Cert.Spec.own (Cert.Spec.dist E C (Cert.Spec.sq C) n) (L (ix1 n)) - Cert.Spec.dist E C (Cert.Spec.sq C) n q) 0 := by
  have e : idx_main_v19 (ix2 n q) = ix2 n 0 :=
    funext fun a => by match a with | ⟨0, _⟩ => rfl | ⟨1, _⟩ => rfl
  rw [val_main_v21_apply, val_main_v20_apply, val_main_v19_apply, e, picked_apply E C L hE hC hL,
    dists_apply E C hE hC, val_main_call1_v0_apply, val_main_call1_cst_apply, Ideal.ofBits_def, Ideal.ofBits_zero_f32]
  rfl

/-- The reference program's result is the loss of its three arguments, for finite tables and labels in range. -/
theorem ref_loss (E : FVec Ideal Cert.ReferenceIdeal.S65536x64 .f32) (C : FVec Ideal Cert.ReferenceIdeal.S2048x64 .f32)
    (L : IVec Cert.ReferenceIdeal.S65536 32)
    (hE : ∀ i, ∃ r : ℝ, E i = (r : EReal)) (hC : ∀ i, ∃ r : ℝ, C i = (r : EReal)) (hL : ∀ i, (L i).toNat < 2048) :
    Cert.ReferenceIdeal.ReadP.val_main_v22 (F := Ideal) E C L = fun _ => Cert.Spec.loss E C L := by
  funext i
  rw [val_main_v22_apply, val_main_cst_3_apply, Ideal.ofBits_def, Ideal.ofBits_zero_f32, zero_add]
  refine (sum_idx2 (n0 := 65536) (n1 := 2048) _).trans ?_
  unfold Cert.Spec.loss Cert.Spec.tableLoss Cert.Spec.rowLoss
  refine Finset.sum_congr rfl fun n _ => Finset.sum_congr rfl fun q _ => ?_
  exact term_apply E C L hE hC hL n q

end Cert.RefValue

end
-- ==== Proof.PreFacts.lean ====
/-
  The precondition read back. The printed predicate is the conjunction of four "all" reductions: every entry of the
  row table E is below +∞ in absolute value, the same for the centre table C, every label is at least 0 as a signed
  word, and every label is below 2048 as a signed word. When the predicate is 1, each reduction is 1, so each compared
  element is 1; an extended real whose absolute value is below +∞ is a real number, and a 32-bit word that is signed
  non-negative and signed below 2048 has its unsigned value below 2048.
-/
import proofs.«430730_j9045201126030_3_alg».proof.Pre_finite_inputs
import Idealize.ShloMosaic.Lib.ReduceAll
import Idealize.ShloMosaic.Lib.StableHlo.Predicate
import Idealize.ShloMosaic.Lib.ValueIdx
import Idealize.ShloMosaic.PureOps.Ideal.Laws

namespace Cert.PreFacts

open Idealize.ShloMosaic Idealize.ShloMosaic.ValueIdx

/-- The rank-0 shape has one index. -/
instance : Subsingleton Cert.Pre_finite_inputs.S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max x (-x) is strictly below +∞ is a real number: at -∞ the absolute value
    is +∞, and so it is at +∞. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- A 32-bit word that is at least 0 and below 2048 as a signed number is below 2048 as an unsigned one. -/
theorem toNat_lt_of_signed (l : BitVec 32) (h0 : IntOp.cmpi .sge l 0#32 = 1#1) (h1 : IntOp.cmpi .slt l 2048#32 = 1#1) :
    l.toNat < 2048 := by
  simp only [IntOp.cmpi, StableHlo.Predicate.ofBool_eq_one_iff, BitVec.sle, BitVec.slt, decide_eq_true_eq] at h0 h1
  have e0 : (0#32 : BitVec 32).toInt = 0 := by decide
  have e1 : (2048#32 : BitVec 32).toInt = 2048 := by decide
  rw [e0] at h0
  rw [e1] at h1
  rw [BitVec.toInt_eq_toNat_cond] at h0 h1
  have hl := l.isLt
  split at h0 <;> omega

/-- When the predicate holds of (E, C, L): every entry of E and of C is a real number, and every label's unsigned value
    is below 2048. Each of the four reductions in the conjunction is 1, hence each compared element is 1. -/
theorem of_pre [Cert.Pre_finite_inputs.Facts] (E : FVec Ideal Cert.Pre_finite_inputs.S65536x64 .f32)
    (C : FVec Ideal Cert.Pre_finite_inputs.S2048x64 .f32) (L : IVec Cert.Pre_finite_inputs.S65536 32)
    (h : Cert.Pre_finite_inputs.fn (F := Ideal) E C L = fun _ => 1#1) :
    (∀ i, ∃ r : ℝ, E i = (r : EReal)) ∧ (∀ i, ∃ r : ℝ, C i = (r : EReal)) ∧ (∀ i, (L i).toNat < 2048) := by
  have h1 := congrFun h ix0
  dsimp only [Cert.Pre_finite_inputs.fn, Cert.Pre_finite_inputs.fn_part1, andi] at h1
  obtain ⟨h123, h4⟩ := IntOp.andi_eq_one.1 h1
  obtain ⟨h12, h3⟩ := IntOp.andi_eq_one.1 h123
  obtain ⟨hE, hC⟩ := IntOp.andi_eq_one.1 h12
  refine ⟨fun i => ?_, fun i => ?_, fun i => ?_⟩
  · have e : Ideal.cmp .olt (max (E i) (-(E i))) (Ideal.ofBits .f32 0x7F800000#32) = 1#1 :=
      Host.reduce_andi_all _ _ _ _ _ hE i
    rw [inf_word] at e
    exact real_of_abs_lt_top _ e
  · have e : Ideal.cmp .olt (max (C i) (-(C i))) (Ideal.ofBits .f32 0x7F800000#32) = 1#1 :=
      Host.reduce_andi_all _ _ _ _ _ hC i
    rw [inf_word] at e
    exact real_of_abs_lt_top _ e
  · have e0 : IntOp.cmpi .sge (L i) 0#32 = 1#1 := Host.reduce_andi_all _ _ _ _ _ h3 i
    have e1 : IntOp.cmpi .slt (L i) 2048#32 = 1#1 := Host.reduce_andi_all _ _ _ _ _ h4 i
    exact toNat_lt_of_signed _ e0 e1

end Cert.PreFacts
-- ==== Proof.lean ====
/-
  The certificate: a ball loss computed two ways.

  Both programs take 65536 embedding rows and 2048 centre rows in dimension 64 and one class label per row, form each
  row's clamped distances to all centres, pick the row's own-class distance, and sum max (own - distance) 0 over rows
  and centres. The reference picks the own-class distance by a gather along the centre axis; the kernel by a masked
  sum over the centres (the column whose index equals the label), accumulating 1024-row blocks into one accumulator
  per core and adding the two cores' totals at the end. Under the precondition — finite tables, labels in [0, 2048) —
  both results are the same extended real, Spec.loss of the three arguments:
  * the kernel's side: Proof/KPayload (one block's loss), KPieces / KAccum (the accumulator point by point), KBlocks
    (the blocks as rows of the arguments), KFinal (the output array and the lines after the launch), KValue (the total
    is the loss);
  * the reference's side: Proof/RefValue over the reference's run read operation by operation;
  * the precondition read back: Proof/PreFacts. Finiteness is used once, to take the factor 2 out of the reference's
    inner product; the label range makes the reference's index in bounds and the kernel's mask hit exactly one column.
  The kernel's idealization rewrote nothing, so its preservation claim is trivial; the three frame claims are the
  programs' runs with the values dropped.
-/
import proofs.«430730_j9045201126030_3_alg».proof.Defs
import proofs.«430730_j9045201126030_3_alg».proof.Proof.Gen.Kernel
import proofs.«430730_j9045201126030_3_alg».proof.Proof.Gen.Kernel.Frame
import proofs.«430730_j9045201126030_3_alg».proof.Proof.Gen.KernelIdeal
import proofs.«430730_j9045201126030_3_alg».proof.Proof.Gen.KernelIdeal.Frame
import proofs.«430730_j9045201126030_3_alg».proof.Proof.Gen.ReferenceIdeal
import proofs.«430730_j9045201126030_3_alg».proof.Proof.Gen.Pre_finite_inputs
import proofs.«430730_j9045201126030_3_alg».proof.Proof.KValue
import proofs.«430730_j9045201126030_3_alg».proof.Proof.RefValue
import proofs.«430730_j9045201126030_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end at the loss of the kernel's arguments. -/
theorem algebraic : Cert.algebraic_KernelIdeal_ReferenceIdeal := by
  intro m ρ m' ρ' hpre hagree
  refine ⟨fun c => fun _ => Cert.Spec.loss (Cert.KValue.arrE m c) (Cert.KBlocks.arrC m c) (Cert.KValue.arrL m c), ?_, ?_⟩
  · refine (θ_run Cert.KernelIdeal.defs _ _).mono (fun _ h c => ⟨(h c).1.trans ?_, (h c).2⟩) (Cert.KFinal.run m ρ)
    exact funext fun _ => Cert.KValue.total_eq m c
  · refine (θ_run Cert.ReferenceIdeal.defs _ _).mono (fun _ h c => ⟨(h c).1.trans ?_, (h c).2⟩)
      (Cert.ReferenceIdeal.ValueP.run (F := Ideal) m' ρ')
    obtain ⟨hE, hC, hL⟩ := Cert.PreFacts.of_pre _ _ _ (hpre c)
    rw [Cert.ReferenceIdeal.ReadP.val_main_v22_eq, (hagree c).1, (hagree c).2.1, (hagree c).2.2]
    exact Cert.RefValue.ref_loss _ _ _ hE hC hL

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
